-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S100000x128 .f32) (main_arg1 : IVec S2x1600000 32) (main_arg2 : FVec F S128x128 .f32) (main_arg3 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩

abbrev nBuf : Space → Nat
  | .hbm => 75
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S1600000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S1600000x1, .f32⟩
  | .hbm, ⟨68, _⟩ => ⟨S1600000x64, .f32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | .local _ .vmem, ⟨24, _⟩ => ⟨S5000x64, .f32⟩
  | .local _ .vmem, ⟨25, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S100000x64 : Shape := ⟨2, ![100000, 64]⟩
abbrev S1600000x64 : Shape := ⟨2, ![1600000, 64]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S1600000x1, .f32⟩
  | .hbm, ⟨48, _⟩ => ⟨S1600000x128, .f32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000, .f32⟩
  | .hbm, ⟨91, _⟩ => ⟨S1600000, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x64, .f32⟩
  | .hbm, ⟨101, _⟩ => ⟨S1600000x1, .f32⟩
  | .hbm, ⟨102, _⟩ => ⟨S1600000x64, .f32⟩
  | .hbm, ⟨103, _⟩ => ⟨S1600000x64, .f32⟩
  | .hbm, ⟨104, _⟩ => ⟨S_, .f32⟩
  | .hbm, ⟨105, _⟩ => ⟨S100000x64, .f32⟩
  | .hbm, ⟨106, _⟩ => ⟨S1600000x1, .i32⟩
  | .hbm, ⟨107, _⟩ => ⟨S100000x64, .f32⟩
  | .hbm, ⟨108, _⟩ => ⟨S100000, .f32⟩
  | .hbm, ⟨109, _⟩ => ⟨S100000x1, .f32⟩
  | .hbm, ⟨110, _⟩ => ⟨S100000x64, .f32⟩
  | .hbm, ⟨111, _⟩ => ⟨S100000x64, .f32⟩
  | .hbm, ⟨112, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call0_cst : Ref sig .tc := ⟨.hbm, 59, rfl⟩
abbrev main_call0_v0 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_c_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_15 : Ref sig .tc := ⟨.hbm, 92, rfl⟩
abbrev main_v69 : Ref sig .tc := ⟨.hbm, 93, rfl⟩
abbrev main_v70 : Ref sig .tc := ⟨.hbm, 94, rfl⟩
abbrev main_c_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_17 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.GraphConv.lean ====
/-
  A two-layer graph convolution as one function of its four arguments.

  The edge list `e` is a [2, E] integer array: row 0 the source node of each edge, row 1 its destination.  An index
  into the N nodes that is negative is shifted up by N before it is used (`wrapIdx`).  With
  `deg = 1 + (number of edges into each node)` and `dinv = deg^(-1/2)`, every edge carries the weight
  `dinv[dst] * dinv[src]` (`edgeWeight`) and every node the self-loop weight `dinv * dinv` (`selfWeight`, a column).

  One layer sends a node-feature matrix `s` (already multiplied by the layer's weights) to
  `scatter-add over dst of (s[src] * edgeWeight) + s * selfWeight` (`aggregate` then `combine`).  The whole function
  is `layer₂ (relu (layer₁ (x · W1)) · W2)`.  Every stage is written with the host operations themselves, so that a
  program which applies those operations to the same operands produces this term literally; only the two dense
  products are left as the host contraction, which a blockwise product is compared with index by index elsewhere.
-/
import proofs.«151752_j39058432590069_1_alg».proof.Proof.Gen.KernelIdeal
import proofs.«151752_j39058432590069_1_alg».proof.Proof.Gen.ReferenceIdeal

noncomputable section

namespace Cert.GraphConv

open Idealize.ShloMosaic Cert.KernelIdeal Cert.KernelIdeal.Facts₀

variable {F : FTy → Type} [FloatOps F]

/-- Row 0 of the edge list: each edge's source node. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: each edge's destination node. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A node index made ready for a gather: a negative index is shifted up by the number of nodes, and the vector
    becomes a column of one-component index vectors. -/
def wrapIdx (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The destination indices as scatter indices (no shift: an out-of-range index is dropped by the scatter). -/
def dstCol (e : (⟨S2x1600000, .i32⟩ : BufTy).Contents (Elt F)) : (⟨S1600000x1, .i32⟩ : BufTy).Contents (Elt F) :=
  broadcastInDim S1600000x1 ![0] bcast_S1600000_S1600000x1_0 (dstOf e)

/-- `deg^(-1/2)` per node, `deg` one more than the number of edges into the node. -/
def dinvOf (e : (⟨S2x1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32)) (dstCol e)
      (broadcastInDim S1600000 ![] bcast_S_S1600000 (constant S_ .f32 0x3F800000#32)))
    (broadcastInDim S100000 ![] bcast_S_S100000 (constant S_ .f32 0x3F800000#32)))

/-- Each edge's weight `dinv[dst] * dinv[src]`. -/
def edgeWeight (e : (⟨S2x1600000, .i32⟩ : BufTy).Contents (Elt F)) : (⟨S1600000, .f32⟩ : BufTy).Contents (Elt F) :=
  mulf (Host.gather gather_S100000_S1600000x1_S1600000_n_0_n_n_0_1_1 (dinvOf e) (wrapIdx (dstOf e)))
    (Host.gather gather_S100000_S1600000x1_S1600000_n_0_n_n_0_1_1 (dinvOf e) (wrapIdx (srcOf e)))

/-- Each node's self-loop weight `dinv * dinv`, as a column. -/
def selfWeight (e : (⟨S2x1600000, .i32⟩ : BufTy).Contents (Elt F)) : (⟨S100000x1, .f32⟩ : BufTy).Contents (Elt F) :=
  broadcastInDim S100000x1 ![0] bcast_S100000_S100000x1_0 (mulf (dinvOf e) (dinvOf e))

/-- At width 128, for any per-edge source, destination and weight vectors: rows of `s` gathered at the sources, each
    scaled by its edge's weight, added into the destinations' rows of a zero matrix. -/
def scatterScaled128 (s : (⟨S100000x128, .f32⟩ : BufTy).Contents (Elt F)) (src dst : (⟨S1600000, .i32⟩ : BufTy).Contents (Elt F))
    (wt : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (Host.gather gather_S100000x128_S1600000x1_S1600000x128_1_0_n_n_0_1_1128 s (wrapIdx src))
      (broadcastInDim S1600000x128 ![0, 1] bcast_S1600000x1_S1600000x128_0_1
        (broadcastInDim S1600000x1 ![0] bcast_S1600000_S1600000x1_0 wt)))

/-- The same at width 64. -/
def scatterScaled64 (s : (⟨S100000x64, .f32⟩ : BufTy).Contents (Elt F)) (src dst : (⟨S1600000, .i32⟩ : BufTy).Contents (Elt F))
    (wt : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (Host.gather gather_S100000x64_S1600000x1_S1600000x64_1_0_n_n_0_1_164 s (wrapIdx src))
      (broadcastInDim S1600000x64 ![0, 1] bcast_S1600000x1_S1600000x64_0_1
        (broadcastInDim S1600000x1 ![0] bcast_S1600000_S1600000x1_0 wt)))

/-- The neighbours' contribution at width 128: along the edge list's own sources, destinations and weights. -/
def aggregate128 (s : (⟨S100000x128, .f32⟩ : BufTy).Contents (Elt F)) (e : (⟨S2x1600000, .i32⟩ : BufTy).Contents (Elt F)) :
    (⟨S100000x128, .f32⟩ : BufTy).Contents (Elt F) :=
  scatterScaled128 s (srcOf e) (dstOf e) (edgeWeight e)

/-- The neighbours' contribution at width 64. -/
def aggregate64 (s : (⟨S100000x64, .f32⟩ : BufTy).Contents (Elt F)) (e : (⟨S2x1600000, .i32⟩ : BufTy).Contents (Elt F)) :
    (⟨S100000x64, .f32⟩ : BufTy).Contents (Elt F) :=
  scatterScaled64 s (srcOf e) (dstOf e) (edgeWeight e)

/-- Neighbours plus self loop at width 128: `a + s * w`, the column `w` spread along each row. -/
def combine128 (a s : (⟨S100000x128, .f32⟩ : BufTy).Contents (Elt F)) (w : (⟨S100000x1, .f32⟩ : BufTy).Contents (Elt F)) :
    (⟨S100000x128, .f32⟩ : BufTy).Contents (Elt F) :=
  addf a (mulf s (broadcastInDim S100000x128 ![0, 1] Cert.ReferenceIdeal.Facts₀.bcast_S100000x1_S100000x128_0_1 w))

/-- Neighbours plus self loop at width 64. -/
def combine64 (a s : (⟨S100000x64, .f32⟩ : BufTy).Contents (Elt F)) (w : (⟨S100000x1, .f32⟩ : BufTy).Contents (Elt F)) :
    (⟨S100000x64, .f32⟩ : BufTy).Contents (Elt F) :=
  addf a (mulf s (broadcastInDim S100000x64 ![0, 1] Cert.ReferenceIdeal.Facts₀.bcast_S100000x1_S100000x64_0_1 w))

/-- The rectifier: the larger of the entry and zero. -/
def relu128 (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- The first dense product, [N, 128] by [128, 128], as the host contraction. -/
def product128 (x : (⟨S100000x128, .f32⟩ : BufTy).Contents (Elt F)) (w : (⟨S128x128, .f32⟩ : BufTy).Contents (Elt F)) :
    (⟨S100000x128, .f32⟩ : BufTy).Contents (Elt F) :=
  Host.dotGeneral Cert.ReferenceIdeal.dot_S100000x128_S128x128_S100000x128_1_0_0_1_n_n none x w

/-- The second dense product, [N, 128] by [128, 64], as the host contraction. -/
def product64 (x : (⟨S100000x128, .f32⟩ : BufTy).Contents (Elt F)) (w : (⟨S128x64, .f32⟩ : BufTy).Contents (Elt F)) :
    (⟨S100000x64, .f32⟩ : BufTy).Contents (Elt F) :=
  Host.dotGeneral Cert.ReferenceIdeal.dot_S100000x128_S128x64_S100000x64_1_0_0_1_n_n none x w

/-- The hidden features: the first layer of the product `x · W1`, rectified. -/
def hidden (x : (⟨S100000x128, .f32⟩ : BufTy).Contents (Elt F)) (e : (⟨S2x1600000, .i32⟩ : BufTy).Contents (Elt F))
    (w1 : (⟨S128x128, .f32⟩ : BufTy).Contents (Elt F)) : (⟨S100000x128, .f32⟩ : BufTy).Contents (Elt F) :=
  relu128 (combine128 (aggregate128 (product128 x w1) e) (product128 x w1) (selfWeight e))

/-- The whole function: the second layer of `hidden · W2`. -/
def logits (x : (⟨S100000x128, .f32⟩ : BufTy).Contents (Elt F)) (e : (⟨S2x1600000, .i32⟩ : BufTy).Contents (Elt F))
    (w1 : (⟨S128x128, .f32⟩ : BufTy).Contents (Elt F)) (w2 : (⟨S128x64, .f32⟩ : BufTy).Contents (Elt F)) :
    (⟨S100000x64, .f32⟩ : BufTy).Contents (Elt F) :=
  combine64 (aggregate64 (product64 (hidden x e w1) w2) e) (product64 (hidden x e w1) w2) (selfWeight e)

end Cert.GraphConv

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Product128.lean ====
/-
  The first dense product, computed one block of 5000 rows at a time, is the whole product.

  At each of the 20 grid points the body multiplies rows 5000·t … 5000·t + 4999 of the left operand by the whole
  128 × 128 right operand (the conversions to a narrower float format are the identity on extended reals, and the
  accumulator starts at zero), and writes the block back to the same rows of the result.  Entry (p, q) of the
  block is Σ_k x(5000·t + p, k) · w(k, q), which is entry (5000·t + p, q) of the host contraction of the two whole
  operands; the 20 blocks tile the result, so the result array ends holding that contraction.  Stated for any
  contents `V` the region is entered from.
-/
import proofs.«151752_j39058432590069_1_alg».proof.Proof.Gen.KernelIdeal.Frame
import proofs.«151752_j39058432590069_1_alg».proof.Proof.GraphConv
import proofs.«151752_j39058432590069_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Product128

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The index maps over the grid: the left operand's and the result's blocks move down with the point, the right
    operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product read at (p, q): the sum over k of x(p, k) · w(k, q). -/
theorem pay_apply (x : Vec Ideal S5000x128 .f32) (w : Vec Ideal S128x128 .f32) (p : Fin 5000) (q : Fin 128) :
    k0_pay1 x w (ix2 p q) = ∑ k : Fin 128, x (ix2 p k) * w (ix2 k q) := by
  unfold k0_pay1
  refine (Ideal.matmul_constant_zero_apply _ none _ _ (ix2 p q)).trans ?_
  exact PlainDot.sum_eq dot_S5000x128_S128x128_S5000x128_1_0_0_1_n_n rfl rfl rfl rfl rfl rfl _ _ p q

/-- The host contraction of the whole operands read at (P, q). -/
theorem product_apply (X : FVec Ideal S100000x128 .f32) (W : FVec Ideal S128x128 .f32) (P : Fin 100000) (q : Fin 128) :
    GraphConv.product128 (F := Ideal) X W (ix2 P q) = ∑ k : Fin 128, X (ix2 P k) * W (ix2 k q) := by
  unfold GraphConv.product128
  simp only [Host.dotGeneral]
  refine (Ideal.dotGeneral_apply _ none _ _ _ (ix2 P q)).trans ?_
  exact PlainDot.sum_eq Cert.ReferenceIdeal.dot_S100000x128_S128x128_S100000x128_1_0_0_1_n_n rfl rfl rfl rfl rfl rfl _ _ P q

/-- A block's entry is the whole product's entry `tv` blocks further down, when the block's rows are those rows of
    the left operand and its right operand is the whole one. -/
theorem entry_eq (X : FVec Ideal S100000x128 .f32) (W : FVec Ideal S128x128 .f32) (x : Vec Ideal S5000x128 .f32)
    (w : Vec Ideal S128x128 .f32) (tv : Nat)
    (hx : ∀ (y : S5000x128.Idx) (i : S100000x128.Idx), (i 0).val = tv * 5000 + (y 0).val → (i 1).val = (y 1).val → x y = X i)
    (hw : ∀ y : S128x128.Idx, w y = W y)
    (j : S5000x128.Idx) (i : S100000x128.Idx) (h0 : (i 0).val = tv * 5000 + (j 0).val) (h1 : (i 1).val = (j 1).val) :
    k0_pay1 x w j = GraphConv.product128 (F := Ideal) X W i := by
  obtain ⟨p, q, rfl⟩ : ∃ (p : Fin 5000) (q : Fin 128), j = ix2 p q := ⟨j 0, j 1, eq_ix2 j⟩
  obtain ⟨P, q', rfl⟩ : ∃ (P : Fin 100000) (q' : Fin 128), i = ix2 P q' := ⟨i 0, i 1, eq_ix2 i⟩
  obtain rfl : q' = q := Fin.ext h1
  rw [pay_apply, product_apply]
  refine Finset.sum_congr rfl fun k _ => ?_
  rw [hx (ix2 p k) (ix2 P k) h0 rfl, hw]

section
variable (V : (c : Dev nD) → (b : Ref sig .tc) → Buf (Elt Ideal) ((c : Thread nD τ).loc b))

/-- The left operand's block at point `t` is rows 5000·t … of the array. -/
theorem xblk_apply (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_arg0 : FVec Ideal S100000x128 .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The right operand's block at every point is the whole array. -/
theorem wblk_apply (c : Dev nD) (t : Fin cfg0.N) (y : S128x128.Idx) :
    (iblk0 V c 1 t : Vec Ideal S128x128 .f32) y = (V c main_arg2 : FVec Ideal S128x128 .f32) y := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- What point `t` writes back is block `t` of the whole product. -/
theorem flushed_eq (c : Dev nD) (t : Fin cfg0.N) :
    (dat0 V c).flushed 2 t = ((cfg0.win 2).blk t).view.read (Elt Ideal) (GraphConv.product128 (F := Ideal) (V c main_arg0) (V c main_arg2)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  show k0_pay1 (iblk0 V c 0 t : Vec Ideal S5000x128 .f32) (iblk0 V c 1 t : Vec Ideal S128x128 .f32) (j : S5000x128.Idx)
    = GraphConv.product128 (F := Ideal) (V c main_arg0) (V c main_arg2) (((cfg0.win 2).blk t).view.emb j)
  refine entry_eq _ _ _ _ t.val (fun y i h0 h1 => xblk_apply V c t y i h0 h1) (fun y => wblk_apply V c t y) j _ ?_ ?_
  · show win0_2.index t 0 * 5000 + 1 * (j 0).val = t.val * 5000 + (j 0).val; rw [e4]; omega
  · show win0_2.index t 1 * 128 + 1 * (j 1).val = (j 1).val; rw [e5]; omega

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Every index of the result lies in the block of the point its row falls in. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t 0 * 5000 ≤ (i 0).val ∧ (i 0).val < win0_2.index t 0 * 5000 + 5000; rw [e4, ht]; omega
  | ⟨1, _⟩ => show win0_2.index t 1 * 128 ≤ (i 1).val ∧ (i 1).val < win0_2.index t 1 * 128 + 128; rw [e5]; omega

/-- The result array after the region: the whole product of the two operand arrays as the region found them. -/
theorem final (c : Dev nD) :
    (dat0 V c).arrAt 2 cfg0.N = GraphConv.product128 (F := Ideal) (V c main_arg0) (V c main_arg2) :=
  (dat0 V c).arrAt_eq_of_cover 2 _ (fun t _ => flushed_eq V c t) cover

end

end Cert.KernelIdeal.Product128

end
-- ==== Proof.Combine128.lean ====
/-
  The first layer's combine step, computed one block of 5000 rows at a time, is the whole combine.

  At each of the 20 grid points the body reads rows 5000·t … 5000·t + 4999 of the neighbours' sum `a`, of the
  product `s` and of the self-loop column `w`, and writes `max (a + s · w, 0)` to the same rows of the result, the
  column's one entry per row spread along the row.  Entry (p, q) of the block is
  `max (a(P, q) + s(P, q) · w(P, 0), 0)` with P = 5000·t + p, which is the entry (P, q) of the rectified combine of
  the three whole arrays; the 20 blocks tile the result.  Stated for any contents `V` the region is entered from.
-/
import proofs.«151752_j39058432590069_1_alg».proof.Proof.Gen.KernelIdeal.Frame
import proofs.«151752_j39058432590069_1_alg».proof.Proof.GraphConv
import Idealize.ShloMosaic.Lib.Pipeline.Value
import Idealize.ShloMosaic.Lib.ValueIdx

set_option maxRecDepth 16384

noncomputable section

namespace Cert.KernelIdeal.Combine128

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The index maps over the grid: every window's block moves down with the point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The body's value read at (p, q): `max (a(p, q) + s(p, q) · w(p, 0), 0)`. -/
theorem pay_apply (a s : Vec Ideal S5000x128 .f32) (w : Vec Ideal S5000x1 .f32) (p : Fin 5000) (q : Fin 128) :
    k1_pay1 a s w (ix2 p q) = max (a (ix2 p q) + s (ix2 p q) * w (ix2 p (0 : Fin 1))) (Ideal.ofBits .f32 0x00000000#32) := by
  unfold k1_pay1
  simp only [shapeCast_self]
  show max (a (ix2 p q) + s (ix2 p q) * broadcastTo S5000x128 w _ (ix2 p q)) _ = _
  rw [broadcastTo_apply w _ (ix2 p q) (ix2 p (0 : Fin 1)) (fun a => by
    match a with
    | ⟨0, _⟩ => rfl
    | ⟨1, _⟩ => rfl)]
  rfl

/-- The rectified combine of the whole arrays read at (P, q). -/
theorem spec_apply (A S : FVec Ideal S100000x128 .f32) (W : FVec Ideal S100000x1 .f32) (P : Fin 100000) (q : Fin 128) :
    GraphConv.relu128 (F := Ideal) (GraphConv.combine128 A S W) (ix2 P q)
      = max (A (ix2 P q) + S (ix2 P q) * W (ix2 P (0 : Fin 1))) (Ideal.ofBits .f32 0x00000000#32) := by
  unfold GraphConv.relu128 GraphConv.combine128
  show max (A (ix2 P q) + S (ix2 P q) * broadcastInDim S100000x128 ![0, 1] _ W (ix2 P q))
      (broadcastInDim S100000x128 ![] _ (constant (F := Ideal) S_ .f32 0x00000000#32) (ix2 P q)) = _
  rw [broadcastInDim_apply ![0, 1] _ W (ix2 P q) (ix2 P (0 : Fin 1)) (fun a => by
    match a with
    | ⟨0, _⟩ => rfl
    | ⟨1, _⟩ => rfl)]
  rfl

/-- A block's entry is the whole combine's entry `tv` blocks further down. -/
theorem entry_eq (A S : FVec Ideal S100000x128 .f32) (W : FVec Ideal S100000x1 .f32)
    (a s : Vec Ideal S5000x128 .f32) (w : Vec Ideal S5000x1 .f32) (tv : Nat)
    (ha : ∀ (y : S5000x128.Idx) (i : S100000x128.Idx), (i 0).val = tv * 5000 + (y 0).val → (i 1).val = (y 1).val → a y = A i)
    (hs : ∀ (y : S5000x128.Idx) (i : S100000x128.Idx), (i 0).val = tv * 5000 + (y 0).val → (i 1).val = (y 1).val → s y = S i)
    (hw : ∀ (y : S5000x1.Idx) (i : S100000x1.Idx), (i 0).val = tv * 5000 + (y 0).val → (i 1).val = (y 1).val → w y = W i)
    (j : S5000x128.Idx) (i : S100000x128.Idx) (h0 : (i 0).val = tv * 5000 + (j 0).val) (h1 : (i 1).val = (j 1).val) :
    k1_pay1 a s w j = GraphConv.relu128 (F := Ideal) (GraphConv.combine128 A S W) i := by
  obtain ⟨p, q, rfl⟩ : ∃ (p : Fin 5000) (q : Fin 128), j = ix2 p q := ⟨j 0, j 1, eq_ix2 j⟩
  obtain ⟨P, q', rfl⟩ : ∃ (P : Fin 100000) (q' : Fin 128), i = ix2 P q' := ⟨i 0, i 1, eq_ix2 i⟩
  obtain rfl : q' = q := Fin.ext h1
  rw [pay_apply, spec_apply, ha (ix2 p q') (ix2 P q') h0 rfl, hs (ix2 p q') (ix2 P q') h0 rfl,
    hw (ix2 p (0 : Fin 1)) (ix2 P (0 : Fin 1)) h0 rfl]

section
variable (V : (c : Dev nD) → (b : Ref sig .tc) → Buf (Elt Ideal) ((c : Thread nD τ).loc b))

/-- The neighbours' sum's block at point `t` is rows 5000·t … of its array. -/
theorem ablk_apply (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v41 : FVec Ideal S100000x128 .f32) i := by
  obtain ⟨e0, e1, -⟩ := idx_facts t
  unfold iblk1
  rw [View.read_apply]
  show V c main_v41 _ = V c main_v41 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The product's block at point `t` is rows 5000·t … of its array. -/
theorem sblk_apply (c : Dev nD) (t : Fin cfg1.N) (y : S5000x128.Idx) (i : S100000x128.Idx)
    (h0 : (i 0).val = t.val * 5000 + (y 0).val) (h1 : (i 1).val = (y 1).val) :
    (iblk1 V c 1 t : Vec Ideal S5000x128 .f32) y = (V c main_v28 : FVec Ideal S100000x128 .f32) i := by
  obtain ⟨-, -, e2, e3, -⟩ := idx_facts t
  unfold iblk1
  rw [View.read_apply]
  show V c main_v28 _ = V c main_v28 _
  congr 1
  funext a
  apply Fin.ext
  match a with
  | ⟨0, _⟩ => show win1_1.index t 0 * 5000 + 1 * (y 0).val = (i 0).val; rw [e2, h0]; omega
  | ⟨1, _⟩ => show win1_1.index t 1 * 128 + 1 * (y 1).val = (i 1).val; rw [e3, h1]; omega

/-- The self-loop column's block at point `t` is rows 5000·t … of the column. -/
theorem wblk_apply (c : Dev nD) (t : Fin cfg1.N) (y : S5000x1.Idx) (i : S100000x1.Idx)
    (h0 : (i 0).val = t.val * 5000 + (y 0).val) (h1 : (i 1).val = (y 1).val) :
    (iblk1 V c 2 t : Vec Ideal S5000x1 .f32) y = (V c main_v27 : FVec Ideal S100000x1 .f32) i := by
  obtain ⟨-, -, -, -, e4, e5, -⟩ := idx_facts t
  unfold iblk1
  rw [View.read_apply]
  show V c main_v27 _ = V c main_v27 _
  congr 1
  funext a
  apply Fin.ext
  match a with
  | ⟨0, _⟩ => show win1_2.index t 0 * 5000 + 1 * (y 0).val = (i 0).val; rw [e4, h0]; omega
  | ⟨1, _⟩ => show win1_2.index t 1 * 1 + 1 * (y 1).val = (i 1).val; rw [e5, h1]; omega

/-- What point `t` writes back is block `t` of the whole rectified combine. -/
theorem flushed_eq (c : Dev nD) (t : Fin cfg1.N) :
    (dat1 V c).flushed 3 t = ((cfg1.win 3).blk t).view.read (Elt Ideal)
      (GraphConv.relu128 (F := Ideal) (GraphConv.combine128 (V c main_v41) (V c main_v28) (V c main_v27))) := by
  obtain ⟨-, -, -, -, -, -, e6, e7⟩ := idx_facts t
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz]
  funext j
  show k1_pay1 (iblk1 V c 0 t : Vec Ideal S5000x128 .f32) (iblk1 V c 1 t : Vec Ideal S5000x128 .f32)
      (iblk1 V c 2 t : Vec Ideal S5000x1 .f32) (j : S5000x128.Idx)
    = GraphConv.relu128 (F := Ideal) (GraphConv.combine128 (V c main_v41) (V c main_v28) (V c main_v27)) (((cfg1.win 3).blk t).view.emb j)
  refine entry_eq _ _ _ _ _ _ t.val (fun y i h0 h1 => ablk_apply V c t y i h0 h1) (fun y i h0 h1 => sblk_apply V c t y i h0 h1)
    (fun y i h0 h1 => wblk_apply V c t y i h0 h1) j _ ?_ ?_
  · show win1_3.index t 0 * 5000 + 1 * (j 0).val = t.val * 5000 + (j 0).val; rw [e6]; omega
  · show win1_3.index t 1 * 128 + 1 * (j 1).val = (j 1).val; rw [e7]; omega

/-- An index of the result is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v42).slice (win1_3.rect t)).set ↔ _
  rw [View.set_slice_whole, Rect.mem_set_unit]
  exact Iff.rfl

/-- Every index of the result lies in the block of the point its row falls in. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, e6, e7⟩ := idx_facts t
  have ht : t.val = (i 0).val / 5000 := rfl
  refine ⟨t, flush1_3 t, ?_⟩
  rw [mem_blk]
  intro a
  match a with
  | ⟨0, _⟩ => show win1_3.index t 0 * 5000 ≤ (i 0).val ∧ (i 0).val < win1_3.index t 0 * 5000 + 5000; rw [e6, ht]; omega
  | ⟨1, _⟩ => show win1_3.index t 1 * 128 ≤ (i 1).val ∧ (i 1).val < win1_3.index t 1 * 128 + 128; rw [e7]; omega

/-- The result array after the region: the rectified combine of the three arrays as the region found them. -/
theorem final (c : Dev nD) :
    (dat1 V c).arrAt 3 cfg1.N = GraphConv.relu128 (F := Ideal) (GraphConv.combine128 (V c main_v41) (V c main_v28) (V c main_v27)) :=
  (dat1 V c).arrAt_eq_of_cover 3 _ (fun t _ => flushed_eq V c t) cover

end

end Cert.KernelIdeal.Combine128

end
-- ==== Proof.Product64.lean ====
/-
  The second dense product, computed one block of 5000 rows at a time, is the whole product.

  At each of the 20 grid points the body multiplies rows 5000·t … 5000·t + 4999 of the hidden features by the whole
  128 × 64 weight matrix (a reshape to the same shape and the conversions to a narrower float format are the
  identity on extended reals; the accumulator starts at zero) and writes the block back to the same rows of the
  result.  Entry (p, q) of the block is Σ_k h(5000·t + p, k) · w(k, q): entry (5000·t + p, q) of the host
  contraction of the two whole operands.  The 20 blocks tile the result.  Stated for any contents `V` the region is
  entered from.
-/
import proofs.«151752_j39058432590069_1_alg».proof.Proof.Gen.KernelIdeal.Frame
import proofs.«151752_j39058432590069_1_alg».proof.Proof.GraphConv
import proofs.«151752_j39058432590069_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Product64

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The index maps over the grid: the hidden features' and the result's blocks move down with the point, the weight
    matrix's block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's product read at (p, q): the sum over k of h(p, k) · w(k, q). -/
theorem pay_apply (h : Vec Ideal S5000x128 .f32) (w : Vec Ideal S128x64 .f32) (p : Fin 5000) (q : Fin 64) :
    k2_pay1 h w (ix2 p q) = ∑ k : Fin 128, h (ix2 p k) * w (ix2 k q) := by
  unfold k2_pay1
  simp only [shapeCast_self]
  refine (Ideal.matmul_constant_zero_apply _ none _ _ (ix2 p q)).trans ?_
  exact PlainDot.sum_eq dot_S5000x128_S128x64_S5000x64_1_0_0_1_n_n rfl rfl rfl rfl rfl rfl _ _ p q

/-- The host contraction of the whole operands read at (P, q). -/
theorem product_apply (H : FVec Ideal S100000x128 .f32) (W : FVec Ideal S128x64 .f32) (P : Fin 100000) (q : Fin 64) :
    GraphConv.product64 (F := Ideal) H W (ix2 P q) = ∑ k : Fin 128, H (ix2 P k) * W (ix2 k q) := by
  unfold GraphConv.product64
  simp only [Host.dotGeneral]
  refine (Ideal.dotGeneral_apply _ none _ _ _ (ix2 P q)).trans ?_
  exact PlainDot.sum_eq Cert.ReferenceIdeal.dot_S100000x128_S128x64_S100000x64_1_0_0_1_n_n rfl rfl rfl rfl rfl rfl _ _ P q

/-- A block's entry is the whole product's entry `tv` blocks further down, when the block's rows are those rows of
    the hidden features and its weight operand is the whole matrix. -/
theorem entry_eq (H : FVec Ideal S100000x128 .f32) (W : FVec Ideal S128x64 .f32) (h : Vec Ideal S5000x128 .f32)
    (w : Vec Ideal S128x64 .f32) (tv : Nat)
    (hh : ∀ (y : S5000x128.Idx) (i : S100000x128.Idx), (i 0).val = tv * 5000 + (y 0).val → (i 1).val = (y 1).val → h y = H i)
    (hw : ∀ y : S128x64.Idx, w y = W y)
    (j : S5000x64.Idx) (i : S100000x64.Idx) (h0 : (i 0).val = tv * 5000 + (j 0).val) (h1 : (i 1).val = (j 1).val) :
    k2_pay1 h w j = GraphConv.product64 (F := Ideal) H W i := by
  obtain ⟨p, q, rfl⟩ : ∃ (p : Fin 5000) (q : Fin 64), j = ix2 p q := ⟨j 0, j 1, eq_ix2 j⟩
  obtain ⟨P, q', rfl⟩ : ∃ (P : Fin 100000) (q' : Fin 64), i = ix2 P q' := ⟨i 0, i 1, eq_ix2 i⟩
  obtain rfl : q' = q := Fin.ext h1
  rw [pay_apply, product_apply]
  refine Finset.sum_congr rfl fun k _ => ?_
  rw [hh (ix2 p k) (ix2 P k) h0 rfl, hw]

section
variable (V : (c : Dev nD) → (b : Ref sig .tc) → Buf (Elt Ideal) ((c : Thread nD τ).loc b))

/-- The hidden features' block at point `t` is rows 5000·t … of the array. -/
theorem hblk_apply (c : Dev nD) (t : Fin cfg2.N) (y : S5000x128.Idx) (i : S100000x128.Idx)
    (h0 : (i 0).val = t.val * 5000 + (y 0).val) (h1 : (i 1).val = (y 1).val) :
    (iblk2 V c 0 t : Vec Ideal S5000x128 .f32) y = (V c main_v42 : FVec Ideal S100000x128 .f32) i := by
  obtain ⟨e0, e1, -⟩ := idx_facts t
  unfold iblk2
  rw [View.read_apply]
  show V c main_v42 _ = V c main_v42 _
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The weight matrix's block at every point is the whole array. -/
theorem wblk_apply (c : Dev nD) (t : Fin cfg2.N) (y : S128x64.Idx) :
    (iblk2 V c 1 t : Vec Ideal S128x64 .f32) y = (V c main_arg3 : FVec Ideal S128x64 .f32) y := by
  obtain ⟨-, -, e2, e3, -⟩ := idx_facts t
  unfold iblk2
  rw [View.read_apply]
  show V c main_arg3 _ = V c main_arg3 _
  congr 1
  funext a
  apply Fin.ext
  match a with
  | ⟨0, _⟩ => show win2_1.index t 0 * 128 + 1 * (y 0).val = (y 0).val; rw [e2]; omega
  | ⟨1, _⟩ => show win2_1.index t 1 * 64 + 1 * (y 1).val = (y 1).val; rw [e3]; omega

/-- What point `t` writes back is block `t` of the whole product. -/
theorem flushed_eq (c : Dev nD) (t : Fin cfg2.N) :
    (dat2 V c).flushed 2 t = ((cfg2.win 2).blk t).view.read (Elt Ideal) (GraphConv.product64 (F := Ideal) (V c main_v42) (V c main_arg3)) := by
  obtain ⟨-, -, -, -, e4, e5⟩ := idx_facts t
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  funext j
  show k2_pay1 (iblk2 V c 0 t : Vec Ideal S5000x128 .f32) (iblk2 V c 1 t : Vec Ideal S128x64 .f32) (j : S5000x64.Idx)
    = GraphConv.product64 (F := Ideal) (V c main_v42) (V c main_arg3) (((cfg2.win 2).blk t).view.emb j)
  refine entry_eq _ _ _ _ t.val (fun y i h0 h1 => hblk_apply V c t y i h0 h1) (fun y => wblk_apply V c t y) j _ ?_ ?_
  · show win2_2.index t 0 * 5000 + 1 * (j 0).val = t.val * 5000 + (j 0).val; rw [e4]; omega
  · show win2_2.index t 1 * 64 + 1 * (j 1).val = (j 1).val; rw [e5]; omega

/-- An index of the result is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v43).slice (win2_2.rect t)).set ↔ _
  rw [View.set_slice_whole, Rect.mem_set_unit]
  exact Iff.rfl

/-- Every index of the result lies in the block of the point its row falls in. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, e4, e5⟩ := idx_facts t
  have ht : t.val = (i 0).val / 5000 := rfl
  refine ⟨t, flush2_2 t, ?_⟩
  rw [mem_blk]
  intro a
  match a with
  | ⟨0, _⟩ => show win2_2.index t 0 * 5000 ≤ (i 0).val ∧ (i 0).val < win2_2.index t 0 * 5000 + 5000; rw [e4, ht]; omega
  | ⟨1, _⟩ => show win2_2.index t 1 * 64 ≤ (i 1).val ∧ (i 1).val < win2_2.index t 1 * 64 + 64; rw [e5]; omega

/-- The result array after the region: the whole product of the two operand arrays as the region found them. -/
theorem final (c : Dev nD) :
    (dat2 V c).arrAt 2 cfg2.N = GraphConv.product64 (F := Ideal) (V c main_v42) (V c main_arg3) :=
  (dat2 V c).arrAt_eq_of_cover 2 _ (fun t _ => flushed_eq V c t) cover

end

end Cert.KernelIdeal.Product64

end
-- ==== Proof.Combine64.lean ====
/-
  The second layer's combine step, computed one block of 5000 rows at a time, is the whole combine.

  At each of the 20 grid points the body reads rows 5000·t … 5000·t + 4999 of the neighbours' sum `a`, of the
  product `s` (both 64 wide) and of the self-loop column `w`, and writes `a + s · w` to the same rows of the result,
  the column's one entry per row spread along the row; this layer has no rectifier.  Entry (p, q) of the block is
  `a(P, q) + s(P, q) · w(P, 0)` with P = 5000·t + p: the entry (P, q) of the combine of the three whole arrays.  The
  20 blocks tile the result.  Stated for any contents `V` the region is entered from.
-/
import proofs.«151752_j39058432590069_1_alg».proof.Proof.Gen.KernelIdeal.Frame
import proofs.«151752_j39058432590069_1_alg».proof.Proof.GraphConv
import Idealize.ShloMosaic.Lib.Pipeline.Value
import Idealize.ShloMosaic.Lib.ValueIdx

set_option maxRecDepth 16384

noncomputable section

namespace Cert.KernelIdeal.Combine64

open Cert.KernelIdeal Cert.KernelIdeal.Gen Cert.KernelIdeal.Facts₀
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The index maps over the grid: every window's block moves down with the point. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The body's value read at (p, q): `a(p, q) + s(p, q) · w(p, 0)`. -/
theorem pay_apply (a s : Vec Ideal S5000x64 .f32) (w : Vec Ideal S5000x1 .f32) (p : Fin 5000) (q : Fin 64) :
    k3_pay1 a s w (ix2 p q) = a (ix2 p q) + s (ix2 p q) * w (ix2 p (0 : Fin 1)) := by
  unfold k3_pay1
  simp only [shapeCast_self]
  show a (ix2 p q) + s (ix2 p q) * broadcastTo S5000x64 w _ (ix2 p q) = _
  rw [broadcastTo_apply w _ (ix2 p q) (ix2 p (0 : Fin 1)) (fun a => by
    match a with
    | ⟨0, _⟩ => rfl
    | ⟨1, _⟩ => rfl)]

/-- The combine of the whole arrays read at (P, q). -/
theorem spec_apply (A S : FVec Ideal S100000x64 .f32) (W : FVec Ideal S100000x1 .f32) (P : Fin 100000) (q : Fin 64) :
    GraphConv.combine64 (F := Ideal) A S W (ix2 P q) = A (ix2 P q) + S (ix2 P q) * W (ix2 P (0 : Fin 1)) := by
  unfold GraphConv.combine64
  show A (ix2 P q) + S (ix2 P q) * broadcastInDim S100000x64 ![0, 1] _ W (ix2 P q) = _
  rw [broadcastInDim_apply ![0, 1] _ W (ix2 P q) (ix2 P (0 : Fin 1)) (fun a => by
    match a with
    | ⟨0, _⟩ => rfl
    | ⟨1, _⟩ => rfl)]

/-- A block's entry is the whole combine's entry `tv` blocks further down. -/
theorem entry_eq (A S : FVec Ideal S100000x64 .f32) (W : FVec Ideal S100000x1 .f32)
    (a s : Vec Ideal S5000x64 .f32) (w : Vec Ideal S5000x1 .f32) (tv : Nat)
    (ha : ∀ (y : S5000x64.Idx) (i : S100000x64.Idx), (i 0).val = tv * 5000 + (y 0).val → (i 1).val = (y 1).val → a y = A i)
    (hs : ∀ (y : S5000x64.Idx) (i : S100000x64.Idx), (i 0).val = tv * 5000 + (y 0).val → (i 1).val = (y 1).val → s y = S i)
    (hw : ∀ (y : S5000x1.Idx) (i : S100000x1.Idx), (i 0).val = tv * 5000 + (y 0).val → (i 1).val = (y 1).val → w y = W i)
    (j : S5000x64.Idx) (i : S100000x64.Idx) (h0 : (i 0).val = tv * 5000 + (j 0).val) (h1 : (i 1).val = (j 1).val) :
    k3_pay1 a s w j = GraphConv.combine64 (F := Ideal) A S W i := by
  obtain ⟨p, q, rfl⟩ : ∃ (p : Fin 5000) (q : Fin 64), j = ix2 p q := ⟨j 0, j 1, eq_ix2 j⟩
  obtain ⟨P, q', rfl⟩ : ∃ (P : Fin 100000) (q' : Fin 64), i = ix2 P q' := ⟨i 0, i 1, eq_ix2 i⟩
  obtain rfl : q' = q := Fin.ext h1
  rw [pay_apply, spec_apply, ha (ix2 p q') (ix2 P q') h0 rfl, hs (ix2 p q') (ix2 P q') h0 rfl,
    hw (ix2 p (0 : Fin 1)) (ix2 P (0 : Fin 1)) h0 rfl]

section
variable (V : (c : Dev nD) → (b : Ref sig .tc) → Buf (Elt Ideal) ((c : Thread nD τ).loc b))

/-- The neighbours' sum's block at point `t` is rows 5000·t … of its array. -/
theorem ablk_apply (c : Dev nD) (t : Fin cfg3.N) (y : S5000x64.Idx) (i : S100000x64.Idx)
    (h0 : (i 0).val = t.val * 5000 + (y 0).val) (h1 : (i 1).val = (y 1).val) :
    (iblk3 V c 0 t : Vec Ideal S5000x64 .f32) y = (V c main_v56 : FVec Ideal S100000x64 .f32) i := by
  obtain ⟨e0, e1, -⟩ := idx_facts t
  unfold iblk3
  rw [View.read_apply]
  show V c main_v56 _ = V c main_v56 _
  congr 1
  funext a
  apply Fin.ext
  match a with
  | ⟨0, _⟩ => show win3_0.index t 0 * 5000 + 1 * (y 0).val = (i 0).val; rw [e0, h0]; omega
  | ⟨1, _⟩ => show win3_0.index t 1 * 64 + 1 * (y 1).val = (i 1).val; rw [e1, h1]; omega

/-- The product's block at point `t` is rows 5000·t … of its array. -/
theorem sblk_apply (c : Dev nD) (t : Fin cfg3.N) (y : S5000x64.Idx) (i : S100000x64.Idx)
    (h0 : (i 0).val = t.val * 5000 + (y 0).val) (h1 : (i 1).val = (y 1).val) :
    (iblk3 V c 1 t : Vec Ideal S5000x64 .f32) y = (V c main_v43 : FVec Ideal S100000x64 .f32) i := by
  obtain ⟨-, -, e2, e3, -⟩ := idx_facts t
  unfold iblk3
  rw [View.read_apply]
  show V c main_v43 _ = V c main_v43 _
  congr 1
  funext a
  apply Fin.ext
  match a with
  | ⟨0, _⟩ => show win3_1.index t 0 * 5000 + 1 * (y 0).val = (i 0).val; rw [e2, h0]; omega
  | ⟨1, _⟩ => show win3_1.index t 1 * 64 + 1 * (y 1).val = (i 1).val; rw [e3, h1]; omega

/-- The self-loop column's block at point `t` is rows 5000·t … of the column. -/
theorem wblk_apply (c : Dev nD) (t : Fin cfg3.N) (y : S5000x1.Idx) (i : S100000x1.Idx)
    (h0 : (i 0).val = t.val * 5000 + (y 0).val) (h1 : (i 1).val = (y 1).val) :
    (iblk3 V c 2 t : Vec Ideal S5000x1 .f32) y = (V c main_v27 : FVec Ideal S100000x1 .f32) i := by
  obtain ⟨-, -, -, -, e4, e5, -⟩ := idx_facts t
  unfold iblk3
  rw [View.read_apply]
  show V c main_v27 _ = V c main_v27 _
  congr 1
  funext a
  apply Fin.ext
  match a with
  | ⟨0, _⟩ => show win3_2.index t 0 * 5000 + 1 * (y 0).val = (i 0).val; rw [e4, h0]; omega
  | ⟨1, _⟩ => show win3_2.index t 1 * 1 + 1 * (y 1).val = (i 1).val; rw [e5, h1]; omega

/-- What point `t` writes back is block `t` of the whole combine. -/
theorem flushed_eq (c : Dev nD) (t : Fin cfg3.N) :
    (dat3 V c).flushed 3 t = ((cfg3.win 3).blk t).view.read (Elt Ideal)
      (GraphConv.combine64 (F := Ideal) (V c main_v56) (V c main_v43) (V c main_v27)) := by
  obtain ⟨-, -, -, -, -, -, e6, e7⟩ := idx_facts t
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz]
  funext j
  show k3_pay1 (iblk3 V c 0 t : Vec Ideal S5000x64 .f32) (iblk3 V c 1 t : Vec Ideal S5000x64 .f32)
      (iblk3 V c 2 t : Vec Ideal S5000x1 .f32) (j : S5000x64.Idx)
    = GraphConv.combine64 (F := Ideal) (V c main_v56) (V c main_v43) (V c main_v27) (((cfg3.win 3).blk t).view.emb j)
  refine entry_eq _ _ _ _ _ _ t.val (fun y i h0 h1 => ablk_apply V c t y i h0 h1) (fun y i h0 h1 => sblk_apply V c t y i h0 h1)
    (fun y i h0 h1 => wblk_apply V c t y i h0 h1) j _ ?_ ?_
  · show win3_3.index t 0 * 5000 + 1 * (j 0).val = t.val * 5000 + (j 0).val; rw [e6]; omega
  · show win3_3.index t 1 * 64 + 1 * (j 1).val = (j 1).val; rw [e7]; omega

/-- An index of the result is in point `t`'s block iff each coordinate is in the block's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v57).slice (win3_3.rect t)).set ↔ _
  rw [View.set_slice_whole, Rect.mem_set_unit]
  exact Iff.rfl

/-- Every index of the result lies in the block of the point its row falls in. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨-, -, -, -, -, -, e6, e7⟩ := idx_facts t
  have ht : t.val = (i 0).val / 5000 := rfl
  refine ⟨t, flush3_3 t, ?_⟩
  rw [mem_blk]
  intro a
  match a with
  | ⟨0, _⟩ => show win3_3.index t 0 * 5000 ≤ (i 0).val ∧ (i 0).val < win3_3.index t 0 * 5000 + 5000; rw [e6, ht]; omega
  | ⟨1, _⟩ => show win3_3.index t 1 * 64 ≤ (i 1).val ∧ (i 1).val < win3_3.index t 1 * 64 + 64; rw [e7]; omega

/-- The result array after the region: the combine of the three arrays as the region found them. -/
theorem final (c : Dev nD) :
    (dat3 V c).arrAt 3 cfg3.N = GraphConv.combine64 (F := Ideal) (V c main_v56) (V c main_v43) (V c main_v27) :=
  (dat3 V c).arrAt_eq_of_cover 3 _ (fun t _ => flushed_eq V c t) cover

end

end Cert.KernelIdeal.Combine64

end
-- ==== Proof.Stretch0.lean ====
/-
  What the first stretch of host operations leaves: from the edge list it computes each edge's source and
  destination, the per-node `deg^(-1/2)`, each edge's weight and the self-loop column, and it writes none of the
  arguments.  Each buffer is read back through the stretch's operations to a term of the launch contents, which is
  the corresponding stage of the graph convolution literally.
-/
import proofs.«151752_j39058432590069_1_alg».proof.Proof.Gen.KernelIdeal.Frame
import proofs.«151752_j39058432590069_1_alg».proof.Proof.GraphConv
import Idealize.ShloMosaic.Lib.StableHlo.Run

set_option maxRecDepth 16384

noncomputable section

namespace Cert.KernelIdeal.Stretch0

open Cert.KernelIdeal Cert.KernelIdeal.Gen
open Idealize.ShloMosaic Idealize.ShloMosaic.TcCoe Idealize.SL.Sem Idealize.ShloMosaic.StableHlo

/-- Closes `after ops W b = W b` for a buffer `b` that no operation of the stretch `ops` writes: each operation's one
    written buffer is another reference. -/
macro "stretch_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg)

/-- Each edge's source node. -/
theorem src_eq (c : Dev nD) :
    W1 m ρ c (Proc.devRef .tc main_v1) = GraphConv.srcOf (F := F) (m ((c : Thread nD τ).loc main_arg1)) := by
  dsimp only [W1, hostOps0]
  after_results_simp <;> rfl

/-- Each edge's destination node. -/
theorem dst_eq (c : Dev nD) :
    W1 m ρ c (Proc.devRef .tc main_v3) = GraphConv.dstOf (F := F) (m ((c : Thread nD τ).loc main_arg1)) := by
  dsimp only [W1, hostOps0]
  after_results_simp <;> rfl

set_option maxHeartbeats 4000000 in
/-- Each edge's weight. -/
theorem weight_eq (c : Dev nD) :
    W1 m ρ c (Proc.devRef .tc main_v25) = GraphConv.edgeWeight (F := F) (m ((c : Thread nD τ).loc main_arg1)) := by
  dsimp only [W1, hostOps0]
  after_results_simp <;> rfl

set_option maxHeartbeats 4000000 in
/-- The self-loop column. -/
theorem self_eq (c : Dev nD) :
    W1 m ρ c (Proc.devRef .tc main_v27) = GraphConv.selfWeight (F := F) (m ((c : Thread nD τ).loc main_arg1)) := by
  dsimp only [W1, hostOps0]
  after_results_simp <;> rfl

/-- The stretch writes none of the float arguments: the node features … -/
theorem keeps_x (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  stretch_keeps hostOps0

/-- … the first weight matrix … -/
theorem keeps_w1 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  stretch_keeps hostOps0

/-- … and the second weight matrix. -/
theorem keeps_w2 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  stretch_keeps hostOps0

end Cert.KernelIdeal.Stretch0

end
-- ==== Proof.Stretch1.lean ====
/-
  What the second stretch of host operations leaves, from any contents `W` it is entered from: the first layer's
  neighbours' sum, as the gather-scale-scatter stage of the graph convolution applied to the product, sources,
  destinations and weights it finds in their buffers; and every buffer the later segments read that it does not write.
-/
import proofs.«151752_j39058432590069_1_alg».proof.Proof.Gen.KernelIdeal.Frame
import proofs.«151752_j39058432590069_1_alg».proof.Proof.GraphConv
import Idealize.ShloMosaic.Lib.StableHlo.Run

set_option maxRecDepth 16384

noncomputable section

namespace Cert.KernelIdeal.Stretch1

open Cert.KernelIdeal Cert.KernelIdeal.Gen
open Idealize.ShloMosaic Idealize.ShloMosaic.TcCoe Idealize.SL.Sem Idealize.ShloMosaic.StableHlo

/-- Closes `after ops W b = W b` for a buffer `b` that no operation of the stretch `ops` writes: each operation's one
    written buffer is another reference. -/
macro "stretch_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable {F : FTy → Type} [FloatOps F]
variable (W : Valuation τ sig (Elt F))

set_option maxHeartbeats 4000000 in
/-- The neighbours' sum the stretch leaves: the rows of the first product it finds, gathered at the edges' sources,
    scaled by the edges' weights and added into the destinations' rows. -/
theorem sum_eq :
    StableHlo.after hostOps1 W (Proc.devRef .tc main_v41)
      = GraphConv.scatterScaled128 (F := F) (W (Proc.devRef .tc main_v28)) (W (Proc.devRef .tc main_v1))
          (W (Proc.devRef .tc main_v3)) (W (Proc.devRef .tc main_v25)) := by
  dsimp only [hostOps1]
  after_results_simp <;> rfl

/-- The stretch does not write the first product. -/
theorem keeps_product : StableHlo.after hostOps1 W (Proc.devRef .tc main_v28) = W (Proc.devRef .tc main_v28) := by
  stretch_keeps hostOps1

/-- The stretch does not write the self-loop column. -/
theorem keeps_self : StableHlo.after hostOps1 W (Proc.devRef .tc main_v27) = W (Proc.devRef .tc main_v27) := by
  stretch_keeps hostOps1

/-- The stretch does not write the edges' sources. -/
theorem keeps_src : StableHlo.after hostOps1 W (Proc.devRef .tc main_v1) = W (Proc.devRef .tc main_v1) := by
  stretch_keeps hostOps1

/-- The stretch does not write the edges' destinations. -/
theorem keeps_dst : StableHlo.after hostOps1 W (Proc.devRef .tc main_v3) = W (Proc.devRef .tc main_v3) := by
  stretch_keeps hostOps1

/-- The stretch does not write the edges' weights. -/
theorem keeps_weight : StableHlo.after hostOps1 W (Proc.devRef .tc main_v25) = W (Proc.devRef .tc main_v25) := by
  stretch_keeps hostOps1

/-- The stretch does not write the second weight matrix. -/
theorem keeps_w2 : StableHlo.after hostOps1 W (Proc.devRef .tc main_arg3) = W (Proc.devRef .tc main_arg3) := by
  stretch_keeps hostOps1

end Cert.KernelIdeal.Stretch1

end
-- ==== Proof.Stretch3.lean ====
/-
  What the third stretch of host operations leaves, from any contents `W` it is entered from: the second layer's
  neighbours' sum, as the gather-scale-scatter stage of the graph convolution applied to the product, sources,
  destinations and weights it finds in their buffers; and the two buffers the last region reads that it does not write.
-/
import proofs.«151752_j39058432590069_1_alg».proof.Proof.Gen.KernelIdeal.Frame
import proofs.«151752_j39058432590069_1_alg».proof.Proof.GraphConv
import Idealize.ShloMosaic.Lib.StableHlo.Run

set_option maxRecDepth 16384

noncomputable section

namespace Cert.KernelIdeal.Stretch3

open Cert.KernelIdeal Cert.KernelIdeal.Gen
open Idealize.ShloMosaic Idealize.ShloMosaic.TcCoe Idealize.SL.Sem Idealize.ShloMosaic.StableHlo

/-- Closes `after ops W b = W b` for a buffer `b` that no operation of the stretch `ops` writes: each operation's one
    written buffer is another reference. -/
macro "stretch_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable {F : FTy → Type} [FloatOps F]
variable (W : Valuation τ sig (Elt F))

set_option maxHeartbeats 4000000 in
/-- The neighbours' sum the stretch leaves: the rows of the second product it finds, gathered at the edges' sources,
    scaled by the edges' weights and added into the destinations' rows. -/
theorem sum_eq :
    StableHlo.after hostOps3 W (Proc.devRef .tc main_v56)
      = GraphConv.scatterScaled64 (F := F) (W (Proc.devRef .tc main_v43)) (W (Proc.devRef .tc main_v1))
          (W (Proc.devRef .tc main_v3)) (W (Proc.devRef .tc main_v25)) := by
  dsimp only [hostOps3]
  after_results_simp <;> rfl

/-- The stretch does not write the second product. -/
theorem keeps_product : StableHlo.after hostOps3 W (Proc.devRef .tc main_v43) = W (Proc.devRef .tc main_v43) := by
  stretch_keeps hostOps3

/-- The stretch does not write the self-loop column. -/
theorem keeps_self : StableHlo.after hostOps3 W (Proc.devRef .tc main_v27) = W (Proc.devRef .tc main_v27) := by
  stretch_keeps hostOps3

end Cert.KernelIdeal.Stretch3

end
-- ==== Proof.Boundaries.lean ====
/-
  The buffer contents at each boundary between the segments of the program, from the launch to the return, as stages
  of the graph convolution applied to the four launch arguments.

  The program is: a stretch of host operations (sources, destinations, edge weights, self-loop column); region 0 (the
  first product); a stretch (the first neighbours' sum); region 1 (combine and rectify: the hidden features); region 2
  (the second product); a stretch (the second neighbours' sum); region 3 (combine: the result).  At each boundary the
  buffers a later segment reads are followed one segment further: a segment that does not write a buffer leaves it
  (an input window's array ends as it was found), a stretch's result is its stage applied to the buffers it reads, and
  a region's result array is its whole-array function of the arrays it reads.  After the last region the result
  array holds the whole function of the arguments.
-/
import proofs.«151752_j39058432590069_1_alg».proof.Proof.Gen.KernelIdeal.Frame
import proofs.«151752_j39058432590069_1_alg».proof.Proof.GraphConv
import proofs.«151752_j39058432590069_1_alg».proof.Proof.Product128
import proofs.«151752_j39058432590069_1_alg».proof.Proof.Combine128
import proofs.«151752_j39058432590069_1_alg».proof.Proof.Product64
import proofs.«151752_j39058432590069_1_alg».proof.Proof.Combine64
import proofs.«151752_j39058432590069_1_alg».proof.Proof.Stretch0
import proofs.«151752_j39058432590069_1_alg».proof.Proof.Stretch1
import proofs.«151752_j39058432590069_1_alg».proof.Proof.Stretch3

set_option maxRecDepth 16384

noncomputable section

namespace Cert.KernelIdeal.Boundaries

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The node features, the edge list and the two weight matrices as launched. -/
abbrev feat (c : Dev nD) : (⟨S100000x128, .f32⟩ : BufTy).Contents (Elt Ideal) := m ((c : Thread nD τ).loc main_arg0)
abbrev edges (c : Dev nD) : (⟨S2x1600000, .i32⟩ : BufTy).Contents (Elt Ideal) := m ((c : Thread nD τ).loc main_arg1)
abbrev wt1 (c : Dev nD) : (⟨S128x128, .f32⟩ : BufTy).Contents (Elt Ideal) := m ((c : Thread nD τ).loc main_arg2)
abbrev wt2 (c : Dev nD) : (⟨S128x64, .f32⟩ : BufTy).Contents (Elt Ideal) := m ((c : Thread nD τ).loc main_arg3)

/-- The first product of the launch arguments. -/
abbrev prod1 (c : Dev nD) := GraphConv.product128 (F := Ideal) (feat m c) (wt1 m c)
/-- The hidden features of the launch arguments. -/
abbrev hid (c : Dev nD) := GraphConv.hidden (F := Ideal) (feat m c) (edges m c) (wt1 m c)
/-- The second product of the launch arguments. -/
abbrev prod2 (c : Dev nD) := GraphConv.product64 (F := Ideal) (hid m c) (wt2 m c)

/-! ## After region 0 -/

theorem product_2 (c : Dev nD) : W2 m ρ c (Proc.devRef .tc main_v28) = prod1 m c :=
  (W2_arr m ρ c 2).trans ((Product128.final (V1 m ρ) c).trans (by
    show GraphConv.product128 (F := Ideal) (W1 m ρ c (Proc.devRef .tc main_arg0)) (W1 m ρ c (Proc.devRef .tc main_arg2)) = _
    rw [Stretch0.keeps_x, Stretch0.keeps_w1]))
theorem src_2 (c : Dev nD) : W2 m ρ c (Proc.devRef .tc main_v1) = GraphConv.srcOf (F := Ideal) (edges m c) :=
  (W2_of_ne m ρ c main_v1 (by decide)).trans (Stretch0.src_eq m ρ c)
theorem dst_2 (c : Dev nD) : W2 m ρ c (Proc.devRef .tc main_v3) = GraphConv.dstOf (F := Ideal) (edges m c) :=
  (W2_of_ne m ρ c main_v3 (by decide)).trans (Stretch0.dst_eq m ρ c)
theorem weight_2 (c : Dev nD) : W2 m ρ c (Proc.devRef .tc main_v25) = GraphConv.edgeWeight (F := Ideal) (edges m c) :=
  (W2_of_ne m ρ c main_v25 (by decide)).trans (Stretch0.weight_eq m ρ c)
theorem self_2 (c : Dev nD) : W2 m ρ c (Proc.devRef .tc main_v27) = GraphConv.selfWeight (F := Ideal) (edges m c) :=
  (W2_of_ne m ρ c main_v27 (by decide)).trans (Stretch0.self_eq m ρ c)
theorem w2_2 (c : Dev nD) : W2 m ρ c (Proc.devRef .tc main_arg3) = wt2 m c :=
  (W2_of_ne m ρ c main_arg3 (by decide)).trans (Stretch0.keeps_w2 m ρ c)

/-! ## After the second stretch -/

theorem sum_3 (c : Dev nD) : W3 m ρ c (Proc.devRef .tc main_v41) = GraphConv.aggregate128 (F := Ideal) (prod1 m c) (edges m c) := by
  refine (Stretch1.sum_eq (W2 m ρ c)).trans ?_
  rw [product_2, src_2, dst_2, weight_2]
  rfl
theorem product_3 (c : Dev nD) : W3 m ρ c (Proc.devRef .tc main_v28) = prod1 m c :=
  (Stretch1.keeps_product (W2 m ρ c)).trans (product_2 m ρ c)
theorem self_3 (c : Dev nD) : W3 m ρ c (Proc.devRef .tc main_v27) = GraphConv.selfWeight (F := Ideal) (edges m c) :=
  (Stretch1.keeps_self (W2 m ρ c)).trans (self_2 m ρ c)
theorem src_3 (c : Dev nD) : W3 m ρ c (Proc.devRef .tc main_v1) = GraphConv.srcOf (F := Ideal) (edges m c) :=
  (Stretch1.keeps_src (W2 m ρ c)).trans (src_2 m ρ c)
theorem dst_3 (c : Dev nD) : W3 m ρ c (Proc.devRef .tc main_v3) = GraphConv.dstOf (F := Ideal) (edges m c) :=
  (Stretch1.keeps_dst (W2 m ρ c)).trans (dst_2 m ρ c)
theorem weight_3 (c : Dev nD) : W3 m ρ c (Proc.devRef .tc main_v25) = GraphConv.edgeWeight (F := Ideal) (edges m c) :=
  (Stretch1.keeps_weight (W2 m ρ c)).trans (weight_2 m ρ c)
theorem w2_3 (c : Dev nD) : W3 m ρ c (Proc.devRef .tc main_arg3) = wt2 m c :=
  (Stretch1.keeps_w2 (W2 m ρ c)).trans (w2_2 m ρ c)

/-! ## After region 1 -/

theorem hidden_4 (c : Dev nD) : W4 m ρ c (Proc.devRef .tc main_v42) = hid m c :=
  (W4_arr m ρ c 3).trans ((Combine128.final (V3 m ρ) c).trans (by
    show GraphConv.relu128 (F := Ideal) (GraphConv.combine128 (W3 m ρ c (Proc.devRef .tc main_v41)) (W3 m ρ c (Proc.devRef .tc main_v28)) (W3 m ρ c (Proc.devRef .tc main_v27))) = _
    rw [sum_3, product_3, self_3]
    rfl))
theorem self_4 (c : Dev nD) : W4 m ρ c (Proc.devRef .tc main_v27) = GraphConv.selfWeight (F := Ideal) (edges m c) :=
  (W4_arr m ρ c 2).trans (((dat1 (V3 m ρ) c).arrAt_in 2 rfl _).trans ((A_eq1 (V3 m ρ) c 2).trans (self_3 m ρ c)))
theorem src_4 (c : Dev nD) : W4 m ρ c (Proc.devRef .tc main_v1) = GraphConv.srcOf (F := Ideal) (edges m c) :=
  (W4_of_ne m ρ c main_v1 (by decide)).trans (src_3 m ρ c)
theorem dst_4 (c : Dev nD) : W4 m ρ c (Proc.devRef .tc main_v3) = GraphConv.dstOf (F := Ideal) (edges m c) :=
  (W4_of_ne m ρ c main_v3 (by decide)).trans (dst_3 m ρ c)
theorem weight_4 (c : Dev nD) : W4 m ρ c (Proc.devRef .tc main_v25) = GraphConv.edgeWeight (F := Ideal) (edges m c) :=
  (W4_of_ne m ρ c main_v25 (by decide)).trans (weight_3 m ρ c)
theorem w2_4 (c : Dev nD) : W4 m ρ c (Proc.devRef .tc main_arg3) = wt2 m c :=
  (W4_of_ne m ρ c main_arg3 (by decide)).trans (w2_3 m ρ c)

/-! ## After region 2 -/

theorem product_5 (c : Dev nD) : W5 m ρ c (Proc.devRef .tc main_v43) = prod2 m c :=
  (W5_arr m ρ c 2).trans ((Product64.final (V4 m ρ) c).trans (by
    show GraphConv.product64 (F := Ideal) (W4 m ρ c (Proc.devRef .tc main_v42)) (W4 m ρ c (Proc.devRef .tc main_arg3)) = _
    rw [hidden_4, w2_4]))
theorem self_5 (c : Dev nD) : W5 m ρ c (Proc.devRef .tc main_v27) = GraphConv.selfWeight (F := Ideal) (edges m c) :=
  (W5_of_ne m ρ c main_v27 (by decide)).trans (self_4 m ρ c)
theorem src_5 (c : Dev nD) : W5 m ρ c (Proc.devRef .tc main_v1) = GraphConv.srcOf (F := Ideal) (edges m c) :=
  (W5_of_ne m ρ c main_v1 (by decide)).trans (src_4 m ρ c)
theorem dst_5 (c : Dev nD) : W5 m ρ c (Proc.devRef .tc main_v3) = GraphConv.dstOf (F := Ideal) (edges m c) :=
  (W5_of_ne m ρ c main_v3 (by decide)).trans (dst_4 m ρ c)
theorem weight_5 (c : Dev nD) : W5 m ρ c (Proc.devRef .tc main_v25) = GraphConv.edgeWeight (F := Ideal) (edges m c) :=
  (W5_of_ne m ρ c main_v25 (by decide)).trans (weight_4 m ρ c)

/-! ## After the third stretch -/

theorem sum_6 (c : Dev nD) : W6 m ρ c (Proc.devRef .tc main_v56) = GraphConv.aggregate64 (F := Ideal) (prod2 m c) (edges m c) := by
  refine (Stretch3.sum_eq (W5 m ρ c)).trans ?_
  rw [product_5, src_5, dst_5, weight_5]
  rfl
theorem product_6 (c : Dev nD) : W6 m ρ c (Proc.devRef .tc main_v43) = prod2 m c :=
  (Stretch3.keeps_product (W5 m ρ c)).trans (product_5 m ρ c)
theorem self_6 (c : Dev nD) : W6 m ρ c (Proc.devRef .tc main_v27) = GraphConv.selfWeight (F := Ideal) (edges m c) :=
  (Stretch3.keeps_self (W5 m ρ c)).trans (self_5 m ρ c)

/-! ## After region 3: the result -/

/-- The result array at the last boundary holds the whole function of the launch arguments. -/
theorem result (c : Dev nD) :
    W7 m ρ c (Proc.devRef .tc main_v57) = GraphConv.logits (F := Ideal) (feat m c) (edges m c) (wt1 m c) (wt2 m c) :=
  (W7_arr m ρ c 3).trans ((Combine64.final (V6 m ρ) c).trans (by
    show GraphConv.combine64 (F := Ideal) (W6 m ρ c (Proc.devRef .tc main_v56)) (W6 m ρ c (Proc.devRef .tc main_v43)) (W6 m ρ c (Proc.devRef .tc main_v27)) = _
    rw [sum_6, product_6, self_6]
    rfl))

end Cert.KernelIdeal.Boundaries

end
-- ==== Proof.Reference.lean ====
/-
  The reference program's result is the graph convolution of its launch arguments.

  The reference's run ends with its result buffer at the composed term of its host operations: the same gathers,
  scatters, reciprocal square roots, products and sums, in the same order and on the same operands, as the stages
  of `GraphConv.logits` (the second layer recomputes the degrees, which is the same term again).  So the term is that
  function of the arguments once the stages are opened.
-/
import proofs.«151752_j39058432590069_1_alg».proof.Proof.Gen.ReferenceIdeal.Run
import proofs.«151752_j39058432590069_1_alg».proof.Proof.GraphConv

noncomputable section

namespace Cert.ReferenceIdeal.Whole

open Cert.ReferenceIdeal Idealize.ShloMosaic Idealize.ShloMosaic.TcCoe Idealize.SL.Sem

variable {F : FTy → Type} [FloatOps F]

set_option maxRecDepth 16384 in
set_option maxHeartbeats 2000000 in
/-- The run's result term is `logits` of the four launch arguments. -/
theorem result_eq (m : (ℓ : Loc nD τ sig) → Buf (Elt F) ℓ) (c : Dev nD) :
    Cert.ReferenceIdeal.Value.res_main_v86 (F := F) m c
      = GraphConv.logits (F := F) (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.Value.res_main_v86 GraphConv.logits GraphConv.hidden GraphConv.combine64 GraphConv.combine128
    GraphConv.relu128 GraphConv.aggregate64 GraphConv.aggregate128 GraphConv.scatterScaled64 GraphConv.scatterScaled128
    GraphConv.product64 GraphConv.product128 GraphConv.selfWeight GraphConv.edgeWeight GraphConv.dinvOf GraphConv.dstCol
    GraphConv.wrapIdx GraphConv.dstOf GraphConv.srcOf
  rfl

end Cert.ReferenceIdeal.Whole

end
-- ==== Proof.lean ====
/-
  A two-layer graph convolution: the kernel program against the reference, over the extended reals.

  Both programs compute, from node features `x`, an edge list `e` and two weight matrices,
  `layer₂ (relu (layer₁ (x · W1)) · W2)` with `layer s = scatter-add over dst of (s[src] · dinv[dst] · dinv[src]) +
  s · dinv²` and `dinv = (1 + in-degree)^(-1/2)`.  The kernel program does the two dense products and the two
  combine steps in four tiled kernels of 20 row blocks each and everything else with host operations; the reference
  does all of it with host operations.  On extended reals a change of float format is the identity and a blockwise
  product with a zero accumulator is the product, so each tiled kernel leaves its whole-array function in its result
  array (Product128, Combine128, Product64, Combine64), the host stretches between them are the same operations the
  reference applies (Stretch0, Stretch1, Stretch3), and following the buffers from the launch to the return
  (Boundaries) the kernel program's result is `GraphConv.logits` of the four arguments — which is what the
  reference's result term is (Reference).  No algebraic law beyond reading the two products as the same sums is
  needed, and finiteness of the inputs is not used.

  The three frames: the two kernel programs' are the generated frame certificates; the reference's is its generated
  run with the result dropped.  The idealization rewrote nothing, so `preserves` is `True`.
-/
import proofs.«151752_j39058432590069_1_alg».proof.Defs
import proofs.«151752_j39058432590069_1_alg».proof.Proof.Gen.Kernel
import proofs.«151752_j39058432590069_1_alg».proof.Proof.Gen.Kernel.Skeleton
import proofs.«151752_j39058432590069_1_alg».proof.Proof.Gen.Kernel.Launch
import proofs.«151752_j39058432590069_1_alg».proof.Proof.Gen.Kernel.Points
import proofs.«151752_j39058432590069_1_alg».proof.Proof.Gen.Kernel.Frame
import proofs.«151752_j39058432590069_1_alg».proof.Proof.Gen.KernelIdeal
import proofs.«151752_j39058432590069_1_alg».proof.Proof.Gen.KernelIdeal.Skeleton
import proofs.«151752_j39058432590069_1_alg».proof.Proof.Gen.KernelIdeal.Launch
import proofs.«151752_j39058432590069_1_alg».proof.Proof.Gen.KernelIdeal.Points
import proofs.«151752_j39058432590069_1_alg».proof.Proof.Gen.KernelIdeal.Frame
import proofs.«151752_j39058432590069_1_alg».proof.Proof.Gen.ReferenceIdeal
import proofs.«151752_j39058432590069_1_alg».proof.Proof.Gen.ReferenceIdeal.Run
import proofs.«151752_j39058432590069_1_alg».proof.Proof.Gen.Pre_finite_inputs
import proofs.«151752_j39058432590069_1_alg».proof.Proof.GraphConv
import proofs.«151752_j39058432590069_1_alg».proof.Proof.RunNamed
import proofs.«151752_j39058432590069_1_alg».proof.Proof.Boundaries
import proofs.«151752_j39058432590069_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with their result arrays at the graph convolution of the
    arguments: the kernel program's by following its buffers through the four regions and three host stretches, the
    reference's because its result term is that function. -/
theorem algebraic : Cert.algebraic_KernelIdeal_ReferenceIdeal := by
  intro m ρ m' ρ' _ hagree
  refine ⟨fun c => GraphConv.logits (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Boundaries.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Whole.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
